-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x32 : Shape := ⟨4, ![128, 64, 64, 32]⟩
abbrev S_ : Shape := ⟨0, ![]⟩

class Facts : Prop where
  bcast_S_S128x64x64x32 : S_.BroadcastsInDim S128x64x64x32 (![] : Fin 0 → Fin S128x64x64x32.rank)
  reducesTo_S128x64x64x32_S_d0_1_2_3 : S128x64x64x32.ReducesTo [0, 1, 2, 3] S_
  h_S_ : 0 < S_.numel

variable [Facts]

def fn {F : FTy → Type} [FloatOps F] (main_arg0 : FVec F S128x64x64x32 .f32) : IVec S_ 1 :=
  let main_v0 : FVec F S128x64x64x32 .f32 := Host.absf main_arg0
  let main_cst : FVec F S_ .f32 := constant S_ .f32 0x7F800000#32
  let main_v1 : FVec F S128x64x64x32 .f32 := broadcastInDim S128x64x64x32 ![] bcast_S_S128x64x64x32 main_cst
  let main_v2 : IVec S128x64x64x32 1 := cmpf .olt main_v0 main_v1
  let main_c : IVec S_ 1 := constantI S_ 1 1#1
  let main_v3 : IVec S_ 1 := (fun x v => Host.reduce IntOp.andi x v reducesTo_S128x64x64x32_S_d0_1_2_3 h_S_) main_v2 main_c
  main_v3
-- ==== Kernel.lean ====
abbrev S128x64x64x32 : Shape := ⟨4, ![128, 64, 64, 32]⟩
abbrev S128x64x2048 : Shape := ⟨3, ![128, 64, 2048]⟩
abbrev S1x1 : Shape := ⟨2, ![1, 1]⟩
abbrev S16x64x2048 : Shape := ⟨3, ![16, 64, 2048]⟩
abbrev S16x64 : Shape := ⟨2, ![16, 64]⟩
abbrev S16x64x1 : Shape := ⟨3, ![16, 64, 1]⟩
abbrev S16 : Shape := ⟨1, ![16]⟩
abbrev S1x16 : Shape := ⟨2, ![1, 16]⟩
abbrev S1 : Shape := ⟨1, ![1]⟩
abbrev S16x2048 : Shape := ⟨2, ![16, 2048]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S128x64x64x32, .f32⟩
  | .hbm, ⟨1, _⟩ => ⟨S128x64x2048, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S16x64x2048, .f32⟩
  | .local _ .vmem, ⟨1, _⟩ => ⟨S16x64x2048, .f32⟩
  | .local _ .vmem, ⟨2, _⟩ => ⟨S1x1, .f32⟩
  | .local _ .vmem, ⟨3, _⟩ => ⟨S1x1, .f32⟩
  | _, _ => ⟨S128x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S128x64x64x32_S128x64x2048 : S128x64x64x32.ShapeCasts S128x64x2048
  inb_S1x1_S1x1_0_0 : ∀ a, (![0, 0] : Fin 2 → Nat) a + S1x1.size a ≤ S1x1.size a
  h_S1x1 : 0 < S1x1.numel
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S16x64x2048 : S16x64x2048.ShapeCasts S16x64x2048
  reduces_S16x64x2048_S16x64 : S16x64x2048.Reduces [2] S16x64
  shapeCasts_S16x64_S16x64x1 : S16x64.ShapeCasts S16x64x1
  broadcasts_S16x64x1_S16x64x2048 : S16x64x1.Broadcasts S16x64x2048
  reduces_S16x64_S16 : S16x64.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  reduces_S16x64x2048_S16x2048 : S16x64x2048.Reduces [1] S16x2048
  reduces_S16x2048_S16 : S16x2048.Reduces [1] S16
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S128x64x2048.size a
  hwx0_0 : ∀ i : grid0.Coords, EltTy.bits .f32 = 32 ∨ (Rect.block (s := S128x64x2048) S16x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x64x64x32 : Shape := ⟨4, ![128, 64, 64, 32]⟩
abbrev S128x64x2048 : Shape := ⟨3, ![128, 64, 2048]⟩
abbrev S_ : Shape := ⟨0, ![]⟩
abbrev S128x64 : Shape := ⟨2, ![128, 64]⟩
abbrev S128x64x1 : Shape := ⟨3, ![128, 64, 1]⟩
abbrev S128x64x64 : Shape := ⟨3, ![128, 64, 64]⟩
abbrev S128 : Shape := ⟨1, ![128]⟩

abbrev nBuf : Space → Nat
  | .hbm => 29
  | .vmem => 0
  | .smem => 0
  | _ => 0

abbrev bufTy : (tb : Table) → Fin (tcTables nBuf tb) → BufTy
  | .hbm, ⟨0, _⟩ => ⟨S128x64x64x32, .f32⟩
  | .hbm, ⟨1, _⟩ => ⟨S128x64x2048, .f32⟩
  | .hbm, ⟨2, _⟩ => ⟨S128x64x2048, .f32⟩
  | .hbm, ⟨3, _⟩ => ⟨S_, .f32⟩
  | .hbm, ⟨4, _⟩ => ⟨S128x64, .f32⟩
  | .hbm, ⟨5, _⟩ => ⟨S128x64x1, .f32⟩
  | .hbm, ⟨6, _⟩ => ⟨S128x64x1, .f32⟩
  | .hbm, ⟨7, _⟩ => ⟨S_, .f32⟩
  | .hbm, ⟨8, _⟩ => ⟨S128x64x1, .f32⟩
  | .hbm, ⟨9, _⟩ => ⟨S128x64x1, .f32⟩
  | .hbm, ⟨10, _⟩ => ⟨S128x64x2048, .f32⟩
  | .hbm, ⟨11, _⟩ => ⟨S128x64x2048, .f32⟩
  | .hbm, ⟨12, _⟩ => ⟨S128x64x64, .f32⟩
  | .hbm, ⟨13, _⟩ => ⟨S128x64x2048, .f32⟩
  | .hbm, ⟨14, _⟩ => ⟨S_, .f32⟩
  | .hbm, ⟨15, _⟩ => ⟨S128x64, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S128x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  shapeCasts_S128x64x64x32_S128x64x2048 : S128x64x64x32.ShapeCasts S128x64x2048
  reducesTo_S128x64x2048_S128x64_d2 : S128x64x2048.ReducesTo [2] S128x64
  h_S_ : 0 < S_.numel
  bcast_S128x64_S128x64x1_0_1 : S128x64.BroadcastsInDim S128x64x1 (![0, 1] : Fin 2 → Fin S128x64x1.rank)
  bcast_S_S128x64x1 : S_.BroadcastsInDim S128x64x1 (![] : Fin 0 → Fin S128x64x1.rank)
  bcast_S128x64x1_S128x64x2048_0_1_2 : S128x64x1.BroadcastsInDim S128x64x2048 (![0, 1, 2] : Fin 3 → Fin S128x64x2048.rank)
  reducesTo_S128x64_S128_d1 : S128x64.ReducesTo [1] S128
  reducesTo_S128_S_d0 : S128.ReducesTo [0] S_
  reducesTo_S128x64x64_S128_d1_2 : S128x64x64.ReducesTo [1, 2] S128
  dot_S128x64x2048_S128x64x2048_S128x64x64_2_2_1_1_0_0_wf : DotDims.WF S128x64x2048 S128x64x2048 S128x64x64 [2] [2] [1] [1] [0] [0]

variable [Facts₀]

def dot_S128x64x2048_S128x64x2048_S128x64x64_2_2_1_1_0_0 : DotDims S128x64x2048 S128x64x2048 S128x64x64 where
  lhsContracting := [2]
  rhsContracting := [2]
  lhsNonContracting := [1]
  rhsNonContracting := [1]
  lhsBatch := [0]
  rhsBatch := [0]
  wf := dot_S128x64x2048_S128x64x2048_S128x64x64_2_2_1_1_0_0_wf

class Facts : Prop extends Facts₀ where

variable [Facts]
-- ==== Proof.KernelPieces.lean ====
/-
  What the body leaves in the two one-word accumulators, case by case, as values.
  At the first grid point the body stores zero, reads it back and stores zero's update by the block; at every later
  point it stores the update of what the point before left.  Each accumulator's final store covers its whole buffer,
  so what the buffer holds is that store's payload, whose loads read whole buffers.
-/
import proofs.«133053_j395136991424_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves, in the first accumulator holding `xo1`, its update by the block `x0`. -/
theorem out_B_1 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : ¬cond0_0 i) (x0 : Vec F S16x64x2048 .f32) (xo1 xo2 : Vec F S1x1 .f32) :
    out0_B_1 c i a1 h1 a2 h2 a3 h3 hc x0 xo1 xo2 = k0_pay4 x0 xo1 := by
  unfold out0_B_1
  rw [View.read_writes_eq_canon _ _ _ (cover0_B_1 c i a1 h1 a2 h2 a3 h3 hc x0 xo1 xo2)]
  unfold kernelRun0_B
  dsimp only
  sl_unfold_words
  rw [View.canon_unit_zero hz2]
  simp only [View.readAt_eq_ld, h1.read_unread, h2.read_unread, View.ld_unit_zero (S := S16x64x2048) hz3,
    View.ld_unit_zero (S := S1x1) hz2]

/-- A later point leaves, in the second accumulator holding `xo2`, its update by the block `x0`. -/
theorem out_B_2 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : ¬cond0_0 i) (x0 : Vec F S16x64x2048 .f32) (xo1 xo2 : Vec F S1x1 .f32) :
    out0_B_2 c i a1 h1 a2 h2 a3 h3 hc x0 xo1 xo2 = k0_pay5 x0 xo2 := by
  unfold out0_B_2
  rw [View.read_writes_eq_canon _ _ _ (cover0_B_2 c i a1 h1 a2 h2 a3 h3 hc x0 xo1 xo2)]
  unfold kernelRun0_B
  dsimp only
  sl_unfold_words
  rw [View.canon_unit_zero hz2]
  simp only [View.readAt_eq_ld, h1.read_unread, h3.read_unread, View.ld_unit_zero (S := S16x64x2048) hz3,
    View.ld_unit_zero (S := S1x1) hz2]

/-- The first point leaves, in the first accumulator, the update of the zero it has just stored there. -/
theorem out_A_1 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : cond0_0 i) (x0 : Vec F S16x64x2048 .f32) :
    out0_A_1 c i a1 h1 a2 h2 a3 h3 hc x0 = k0_pay4 x0 (k0_pay1 (F := F)) := by
  unfold out0_A_1
  rw [View.read_writes_eq_canon _ _ _ (cover0_A_1 c i a1 h1 a2 h2 a3 h3 hc x0)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S16x64x2048) hz3]

/-- The first point leaves, in the second accumulator, the update of the zero it has just stored there. -/
theorem out_A_2 (c : Dev nD) (i : grid0.Coords) (a1 : Memref sig .tc .vmem S16x64x2048 .f32) (h1 : a1.IsWhole)
    (a2 : Memref sig .tc .vmem S1x1 .f32) (h2 : a2.IsWhole) (a3 : Memref sig .tc .vmem S1x1 .f32) (h3 : a3.IsWhole)
    (hc : cond0_0 i) (x0 : Vec F S16x64x2048 .f32) :
    out0_A_2 c i a1 h1 a2 h2 a3 h3 hc x0 = k0_pay5 x0 (k0_pay2 (F := F)) := by
  unfold out0_A_2
  rw [View.read_writes_eq_canon _ _ _ (cover0_A_2 c i a1 h1 a2 h2 a3 h3 hc x0)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S16x64x2048) hz3]

end Cert.KernelIdeal.Pieces

end
-- ==== Proof.GramLaw.lean ====
/-
  The algebra of the self-similarity loss on the extended reals.

  For rows a(n, ·) of real numbers, the sum of all entries of the Gram matrix a·aᵀ is the sum over the columns of the
  squared column sums:  ∑_{n,m} ∑_d a(n,d)·a(m,d) = ∑_d (∑_n a(n,d))².  On the extended reals this needs the entries
  to be real (distributivity fails at the infinities), so the law is stated for entries that are coercions of reals,
  and proved in ℝ.  A quotient of a real by a positive extended real is again a real, so L2-normalised rows of a finite
  input, with the norm clamped below by a positive ε, have real entries.
-/
import Idealize.ShloMosaic.PureOps.Ideal.Laws

noncomputable section

namespace Cert.SimLoss

open Idealize.ShloMosaic
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The Gram identity over the reals: the squared column sums, summed over the columns, are the sum of every entry of
    the Gram matrix. -/
theorem gram_real {N D : Type*} [Fintype N] [Fintype D] (r : N → D → ℝ) :
    ∑ d, (∑ n, r n d) * (∑ n, r n d) = ∑ n, ∑ m, ∑ d, r n d * r m d := by
  simp only [Finset.sum_mul_sum]
  rw [Finset.sum_comm]
  refine Finset.sum_congr rfl fun n _ => ?_
  rw [Finset.sum_comm]

/-- The Gram identity on the extended reals, for entries that are real. -/
theorem gram {N D : Type*} [Fintype N] [Fintype D] (a : N → D → EReal) (r : N → D → ℝ)
    (h : ∀ n d, a n d = (r n d : EReal)) :
    ∑ d, (∑ n, a n d) * (∑ n, a n d) = ∑ n, ∑ m, ∑ d, a n d * a m d := by
  simp only [h, ← coe_sum, ← EReal.coe_mul]
  exact congrArg _ (gram_real r)

/-- A real divided by a positive extended real is a real: by a positive real it is the real quotient, by +∞ it is 0. -/
theorem div_real_of_pos {y : EReal} (hy : 0 < y) (x : ℝ) : ∃ q : ℝ, Ideal.div (x : EReal) y = (q : EReal) := by
  induction y using EReal.rec with
  | bot => exact absurd hy (not_lt.mpr bot_le)
  | top => exact ⟨0, by rw [Ideal.div, if_neg EReal.top_ne_zero, EReal.inv_top, mul_zero, EReal.coe_zero]⟩
  | coe c =>
    have hc : c ≠ 0 := (EReal.coe_pos.mp hy).ne'
    exact ⟨x * (1 / c), by rw [Ideal.div_coe hc, ← EReal.coe_mul]⟩

/-- The clamp ε of the norm, the f32 nearest 1e-12, is the positive real 9223372 · 2⁻⁶³. -/
theorem eps_pos : (0 : EReal) < Ideal.ofBits .f32 0x2B8CBCCC#32 := by
  have h : Ideal.ofBits .f32 0x2B8CBCCC#32 = ((9223372 * (2 : ℝ) ^ (-63 : ℤ) : ℝ) : EReal) := by
    simp [Ideal.ofBits, Ideal.ieee, -EReal.coe_mul]
  rw [h]
  exact EReal.coe_pos.mpr (by positivity)

end Cert.SimLoss

end
-- ==== Proof.RowNorm.lean ====
/-
  The specification of the self-similarity loss, as one function of the input read as X[b, n, d]
  (128 batches, 64 rows, 2048 features), on the extended reals.

  Each row is divided by its L2 norm clamped below by ε:  a(b, n, d) = X(b, n, d) / max(√(∑_k X(b, n, k)²), ε).
  Per batch, the sum of every entry of the Gram matrix a·aᵀ is taken in the column form
  sim(b) = ∑_d (∑_n a(b, n, d))², and the trace of the Gram matrix is diag(b) = ∑_n ∑_d a(b, n, d)².
  The loss is (∑_b sim(b)) / 128 − (∑_b diag(b)) / 128.
-/
import proofs.«133053_j395136991424_1_alg».proof.Proof.GramLaw
import Idealize.ShloMosaic.Lib.ValueIdx

noncomputable section

namespace Cert.SimLoss

open Idealize.ShloMosaic Idealize.ShloMosaic.ValueIdx
open scoped BigOperators

/-- The input read as (batch, row, feature). -/
abbrev SX : Shape := ⟨3, ![128, 64, 2048]⟩

/-- The clamp of the norm: the f32 nearest 1e-12. -/
def eps : EReal := Ideal.ofBits .f32 0x2B8CBCCC#32

/-- The divisor of both means: the f32 128. -/
def cnt : EReal := Ideal.ofBits .f32 0x43000000#32

/-- A row divided by its clamped L2 norm. -/
def unitRow (r : Fin 2048 → EReal) (d : Fin 2048) : EReal :=
  Ideal.div (r d) (max (Ideal.sqrt (∑ k : Fin 2048, r k * r k)) eps)

/-- The normalised rows of the input. -/
def att (X : SX.Idx → EReal) (b : Fin 128) (n : Fin 64) (d : Fin 2048) : EReal :=
  unitRow (fun k => X (ix3 b n k)) d

/-- Batch b's sum of squared column sums. -/
def simOf (X : SX.Idx → EReal) (b : Fin 128) : EReal :=
  ∑ d : Fin 2048, (∑ n : Fin 64, att X b n d) * (∑ n : Fin 64, att X b n d)

/-- Batch b's sum of squared entries. -/
def diagOf (X : SX.Idx → EReal) (b : Fin 128) : EReal :=
  ∑ n : Fin 64, ∑ d : Fin 2048, att X b n d * att X b n d

/-- The loss. -/
def loss (X : SX.Idx → EReal) : EReal :=
  Ideal.div (∑ b : Fin 128, simOf X b) cnt - Ideal.div (∑ b : Fin 128, diagOf X b) cnt

theorem eps_pos' : 0 < eps := eps_pos

/-- A row of reals, normalised, is a row of reals: the clamped norm is positive. -/
theorem unitRow_real (r : Fin 2048 → EReal) (d : Fin 2048) (h : ∃ q : ℝ, r d = (q : EReal)) :
    ∃ q : ℝ, unitRow r d = (q : EReal) := by
  obtain ⟨q, hq⟩ := h
  unfold unitRow
  rw [hq]
  exact div_real_of_pos (lt_max_of_lt_right eps_pos') q

/-- For a real input, every normalised entry is a real. -/
theorem att_real (X : SX.Idx → EReal) (hX : ∀ i, ∃ q : ℝ, X i = (q : EReal)) :
    ∃ ρ : Fin 128 → Fin 64 → Fin 2048 → ℝ, ∀ b n d, att X b n d = (ρ b n d : EReal) := by
  have h : ∀ b n d, ∃ q : ℝ, att X b n d = (q : EReal) := fun b n d => unitRow_real _ d (hX _)
  choose ρ hρ using h
  exact ⟨ρ, hρ⟩

/-- For a real input the column form of batch b's Gram total is the sum over every pair of rows of their inner
    product. -/
theorem simOf_eq_gram (X : SX.Idx → EReal) (hX : ∀ i, ∃ q : ℝ, X i = (q : EReal)) (b : Fin 128) :
    simOf X b = ∑ n : Fin 64, ∑ m : Fin 64, ∑ d : Fin 2048, att X b n d * att X b m d := by
  obtain ⟨ρ, hρ⟩ := att_real X hX
  exact gram (fun n d => att X b n d) (ρ b) (hρ b)

/-- A sum over the 128 batches, taken as 8 blocks of 16. -/
theorem sum_blocks {M : Type*} [AddCommMonoid M] (f : Fin 128 → M) :
    ∑ t : Fin 8, ∑ b : Fin 16, f ⟨16 * t.val + b.val, by omega⟩ = ∑ b : Fin 128, f b := by
  rw [← Fintype.sum_prod_type' (f := fun (t : Fin 8) (b : Fin 16) => f ⟨16 * t.val + b.val, by omega⟩)]
  rw [← Equiv.sum_comp (finProdFinEquiv (m := 8) (n := 16)) f]
  refine Finset.sum_congr rfl fun p _ => congrArg f (Fin.ext ?_)
  show 16 * p.1.val + p.2.val = p.2.val + 16 * p.1.val
  omega

end Cert.SimLoss

end
-- ==== Proof.LibKeepdims3.lean ====
/-
  The keep-dimension forms of a reduction over the last axis of a rank-3 array, read at an index: an [a, b] array cast
  to the column form [a, b, 1], and an [a, b, 1] array broadcast along the last axis to [a, b, c].
-/
import Idealize.ShloMosaic.Lib.Pipeline.Value
import Idealize.ShloMosaic.Lib.ValueLayout
import Idealize.ShloMosaic.Lib.ValueIdx

noncomputable section

namespace Cert.Keepdims3

open Idealize.ShloMosaic Idealize.ShloMosaic.ValueIdx

/-- An [a, b] array cast to [a, b, 1] reads, at (i, j, u), the operand at (i, j), whatever the unit coordinate u. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Keepdims3

end
-- ==== Proof.KernelBlock.lean ====
/-
  The body's arithmetic on one block of 16 batches, read at the extended reals.
  The quotient payload is the block's rows normalised; the two accumulating payloads add to the running value the
  block's sum of squared column sums and its sum of squared entries.
-/
import proofs.«133053_j395136991424_1_alg».proof.Proof.Gen.KernelIdeal.Skeleton
import proofs.«133053_j395136991424_1_alg».proof.Proof.RowNorm
import proofs.«133053_j395136991424_1_alg».proof.Proof.LibKeepdims3
import Idealize.ShloMosaic.Lib.Pipeline.Value
import Idealize.ShloMosaic.Lib.ValueLayout

noncomputable section

namespace Cert.KernelIdeal.Block

open Idealize.ShloMosaic Idealize.ShloMosaic.ValueIdx Cert.KernelIdeal Cert.KernelIdeal.Gen Cert.SimLoss Cert.Keepdims3
open scoped BigOperators

/-! ## The source index of a one-axis sum, by coordinates

A sum over one axis reads, at a result index, the source at that index with the summed coordinate inserted.  At the
block's literal shapes the inserted index is the expected tuple of coordinates, axis by axis. -/

/-- Summing a [16, 64, 2048] array over its last axis: the source index over (b, n) with d inserted is (b, n, d). -/
theorem lift_feature (h : S16x64x2048.Reduces [2] S16x64) (b : Fin 16) (n : Fin 64) (d : Fin 2048) :
    h.lift (ix2 b n) d = ix3 b n d :=
  funext fun c => Fin.ext (by match c with | ⟨0, _⟩ => rfl | ⟨1, _⟩ => rfl | ⟨2, _⟩ => rfl)

/-- Summing a [16, 64, 2048] array over its middle axis: the source index over (b, d) with n inserted is (b, n, d). -/
theorem lift_row (h : S16x64x2048.Reduces [1] S16x2048) (b : Fin 16) (d : Fin 2048) (n : Fin 64) :
    h.lift (ix2 b d) n = ix3 b n d :=
  funext fun c => Fin.ext (by match c with | ⟨0, _⟩ => rfl | ⟨1, _⟩ => rfl | ⟨2, _⟩ => rfl)

/-- Summing a [16, 2048] array over its last axis: the source index over b with d inserted is (b, d). -/
theorem lift_col (h : S16x2048.Reduces [1] S16) (b : Fin 16) (d : Fin 2048) : h.lift (ix1 b) d = ix2 b d :=
  funext fun c => Fin.ext (by match c with | ⟨0, _⟩ => rfl | ⟨1, _⟩ => rfl)

/-- Summing a [16, 64] array over its last axis: the source index over b with n inserted is (b, n). -/
theorem lift_rows (h : S16x64.Reduces [1] S16) (b : Fin 16) (n : Fin 64) : h.lift (ix1 b) n = ix2 b n :=
  funext fun c => Fin.ext (by match c with | ⟨0, _⟩ => rfl | ⟨1, _⟩ => rfl)

/-- Summing a [1, 16] array over its last axis: the source index over u with b inserted is (u, b). -/
theorem lift_batch (h : S1x16.Reduces [1] S1) (u : Fin 1) (b : Fin 16) : h.lift (ix1 u) b = ix2 u b :=
  funext fun c => Fin.ext (by match c with | ⟨0, _⟩ => rfl | ⟨1, _⟩ => rfl)

/-! ## The one-axis sums of the body, read at an index -/

/-- The sum over the features of a [16, 64, 2048] array, at (b, n). -/
theorem sum_feature (src : FVec Ideal S16x64x2048 .f32) (b : Fin 16) (n : Fin 64) :
    multiReduction .add [2] S16x64 src 0x00000000#32 reduces_S16x64x2048_S16x64 (.inl rfl) rfl (ix2 b n)
      = ∑ d : Fin 2048, src (ix3 b n d) :=
  (Ideal.multiReduction_add_single src 0x00000000#32 reduces_S16x64x2048_S16x64 (.inl rfl) rfl (ix2 b n)).trans
    (Finset.sum_congr rfl fun d _ => congrArg src (lift_feature _ b n d))

/-- The sum over the rows of a [16, 64, 2048] array, at (b, d). -/
theorem sum_row (src : FVec Ideal S16x64x2048 .f32) (b : Fin 16) (d : Fin 2048) :
    multiReduction .add [1] S16x2048 src 0x00000000#32 reduces_S16x64x2048_S16x2048 (.inl rfl) rfl (ix2 b d)
      = ∑ n : Fin 64, src (ix3 b n d) :=
  (Ideal.multiReduction_add_single src 0x00000000#32 reduces_S16x64x2048_S16x2048 (.inl rfl) rfl (ix2 b d)).trans
    (Finset.sum_congr rfl fun n _ => congrArg src (lift_row _ b d n))

/-- The sum over the features of a [16, 2048] array, at b. -/
theorem sum_col (src : FVec Ideal S16x2048 .f32) (b : Fin 16) :
    multiReduction .add [1] S16 src 0x00000000#32 reduces_S16x2048_S16 (.inl rfl) rfl (ix1 b)
      = ∑ d : Fin 2048, src (ix2 b d) :=
  (Ideal.multiReduction_add_single src 0x00000000#32 reduces_S16x2048_S16 (.inl rfl) rfl (ix1 b)).trans
    (Finset.sum_congr rfl fun d _ => congrArg src (lift_col _ b d))

/-- The sum over the rows of a [16, 64] array, at b. -/
theorem sum_rows (src : FVec Ideal S16x64 .f32) (b : Fin 16) :
    multiReduction .add [1] S16 src 0x00000000#32 reduces_S16x64_S16 (.inl rfl) rfl (ix1 b)
      = ∑ n : Fin 64, src (ix2 b n) :=
  (Ideal.multiReduction_add_single src 0x00000000#32 reduces_S16x64_S16 (.inl rfl) rfl (ix1 b)).trans
    (Finset.sum_congr rfl fun n _ => congrArg src (lift_rows _ b n))

/-- The sum over the batches of a [1, 16] array, at u. -/
theorem sum_batch (src : FVec Ideal S1x16 .f32) (u : Fin 1) :
    multiReduction .add [1] S1 src 0x00000000#32 reduces_S1x16_S1 (.inl rfl) rfl (ix1 u)
      = ∑ b : Fin 16, src (ix2 u b) :=
  (Ideal.multiReduction_add_single src 0x00000000#32 reduces_S1x16_S1 (.inl rfl) rfl (ix1 u)).trans
    (Finset.sum_congr rfl fun b _ => congrArg src (lift_batch _ u b))

/-- The one entry of a [1, 1] array, extracted at (0, 0). -/
theorem extractAt_one {α : Type} (x : S1x1.Idx → α) (h : ∀ a, (![0, 0] : Fin 2 → Nat) a < S1x1.size a) :
    extractAt ![0, 0] x h = x (ix2 (0 : Fin 1) (0 : Fin 1)) := by
  unfold extractAt
  exact congrArg x (funext fun a => Fin.ext (by match a with | ⟨0, _⟩ => rfl | ⟨1, _⟩ => rfl))

/-- The quotient payload at (b, n, d) is row (b, n) of the block, normalised, at d. -/
theorem pay3_apply (x0 : Vec Ideal S16x64x2048 .f32) (b : Fin 16) (n : Fin 64) (d : Fin 2048) :
    k0_pay3 (F := Ideal) x0 (ix3 b n d) = unitRow (fun k => x0 (ix3 b n k)) d := by
  unfold k0_pay3 unitRow
  dsimp only
  rw [shapeCast_self, divf_apply, broadcastTo_ab1_abc_apply, maximumf_apply, broadcast_apply]
  show Ideal.div (x0 (ix3 b n d)) (max (Ideal.sqrt (shapeCast S16x64x1 _ shapeCasts_S16x64_S16x64x1 (ix3 b n (0 : Fin 1)))) eps) = _
  rw [shapeCast_ab_ab1_apply, sum_feature]
  rfl

/-- The first accumulating payload adds the block's sum of squared column sums to the running value. -/
theorem pay4_apply (x0 : Vec Ideal S16x64x2048 .f32) (v : Vec Ideal S1x1 .f32) (j : S1x1.Idx) :
    k0_pay4 (F := Ideal) x0 v j
      = v j + ∑ b : Fin 16, ∑ d : Fin 2048,
          (∑ n : Fin 64, unitRow (fun k => x0 (ix3 b n k)) d) * (∑ n : Fin 64, unitRow (fun k => x0 (ix3 b n k)) d) := by
  unfold k0_pay4
  dsimp only
  rw [addf_apply, shapeCast_self, broadcast_apply, extractAt_one, shapeCast_a_1a_apply, sum_batch]
  refine congrArg (v j + ·) (Finset.sum_congr rfl fun b _ => ?_)
  rw [shapeCast_a_1a_apply, sum_col]
  refine Finset.sum_congr rfl fun d _ => ?_
  rw [mulf_apply, sum_row]
  simp only [pay3_apply]

/-- The second accumulating payload adds the block's sum of squared entries to the running value. -/
theorem pay5_apply (x0 : Vec Ideal S16x64x2048 .f32) (v : Vec Ideal S1x1 .f32) (j : S1x1.Idx) :
    k0_pay5 (F := Ideal) x0 v j
      = v j + ∑ b : Fin 16, ∑ n : Fin 64, ∑ d : Fin 2048,
          unitRow (fun k => x0 (ix3 b n k)) d * unitRow (fun k => x0 (ix3 b n k)) d := by
  unfold k0_pay5
  dsimp only
  rw [addf_apply, shapeCast_self, broadcast_apply, extractAt_one, shapeCast_a_1a_apply, sum_batch]
  refine congrArg (v j + ·) (Finset.sum_congr rfl fun b _ => ?_)
  rw [shapeCast_a_1a_apply, sum_rows]
  refine Finset.sum_congr rfl fun n _ => ?_
  rw [sum_feature]
  simp only [mulf_apply, pay3_apply]

/-- The reset payloads are zero. -/
theorem pay1_apply (j : S1x1.Idx) : (k0_pay1 (F := Ideal)) j = 0 := by
  show Ideal.ofBits .f32 0x00000000#32 = 0
  exact Ideal.ofBits_zero_f32

theorem pay2_apply (j : S1x1.Idx) : (k0_pay2 (F := Ideal)) j = 0 := by
  show Ideal.ofBits .f32 0x00000000#32 = 0
  exact Ideal.ofBits_zero_f32

end Cert.KernelIdeal.Block

end
-- ==== Proof.KernelAccum.lean ====
/-
  The two accumulators over the grid, and what the kernel's two result arrays end holding.
  Point t reads batches 16t … 16t+15 of the input; the first accumulator adds that block's sum of squared column sums
  of the normalised rows, the second its sum of squared entries; both start from zero at point 0 and are written back
  after point 7 only.  So the first result array ends at ∑_b sim(b) and the second at ∑_b diag(b) over all 128
  batches, whatever the order the eight partial sums were added in.
-/
import proofs.«133053_j395136991424_1_alg».proof.Proof.KernelPieces
import proofs.«133053_j395136991424_1_alg».proof.Proof.KernelBlock
import proofs.«133053_j395136991424_1_alg».proof.Proof.RowNorm

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.SimLoss
open scoped BigOperators

variable (m : (ℓ : Loc nD τ sig) → Buf (Elt Ideal) ℓ) (ρ : Dev nD → PrngReg)

/-- The input as the region finds it: (batch, row, feature). -/
abbrev xarr (c : Dev nD) : Vec Ideal S128x64x2048 .f32 := V m c main_v0

/-- The block of 16 batches point `t` reads. -/
abbrev xblk (c : Dev nD) (t : Fin cfg0.N) : Vec Ideal S16x64x2048 .f32 := iblk m c 0 t

theorem lt_of_point (t : Fin cfg0.N) (b : Fin 16) : 16 * t.val + b.val < 128 := by
  have h1 := t.isLt; have h2 : cfg0.N = 8 := N_0; have h3 := b.isLt; omega

/-- Block `t` at (b, n, d) is the input at batch 16t + b. -/
theorem xblk_apply (c : Dev nD) (t : Fin cfg0.N) (b : Fin 16) (n : Fin 64) (d : Fin 2048) :
    xblk m c t (ix3 b n d) = xarr m c (ix3 ⟨16 * t.val + b.val, lt_of_point t b⟩ n d) := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  unfold xblk xarr iblk
  rw [View.read_apply]
  show V m c main_v0 _ = V m c main_v0 _
  congr 1
  funext a
  apply Fin.ext
  match a with
  | ⟨0, _⟩ => show win0_0.index t 0 * 16 + 1 * b.val = 16 * t.val + b.val; rw [hi.1]; omega
  | ⟨1, _⟩ => show win0_0.index t 1 * 64 + 1 * n.val = n.val; rw [hi.2.1]; omega
  | ⟨2, _⟩ => show win0_0.index t 2 * 2048 + 1 * d.val = d.val; rw [hi.2.2]; omega

/-- A block's sum of squared column sums of its normalised rows. -/
def blockSim (x0 : Vec Ideal S16x64x2048 .f32) : EReal :=
  ∑ b : Fin 16, ∑ d : Fin 2048,
    (∑ n : Fin 64, unitRow (fun k => x0 (ix3 b n k)) d) * (∑ n : Fin 64, unitRow (fun k => x0 (ix3 b n k)) d)

/-- A block's sum of squared entries of its normalised rows. -/
def blockDiag (x0 : Vec Ideal S16x64x2048 .f32) : EReal :=
  ∑ b : Fin 16, ∑ n : Fin 64, ∑ d : Fin 2048,
    unitRow (fun k => x0 (ix3 b n k)) d * unitRow (fun k => x0 (ix3 b n k)) d

/-- Block `t`'s sums are the sums of sim and diag over its 16 batches. -/
theorem blockSim_xblk (c : Dev nD) (t : Fin cfg0.N) :
    blockSim (xblk m c t) = ∑ b : Fin 16, simOf (xarr m c) ⟨16 * t.val + b.val, lt_of_point t b⟩ := by
  unfold blockSim simOf att
  simp only [xblk_apply]

theorem blockDiag_xblk (c : Dev nD) (t : Fin cfg0.N) :
    blockDiag (xblk m c t) = ∑ b : Fin 16, diagOf (xarr m c) ⟨16 * t.val + b.val, lt_of_point t b⟩ := by
  unfold blockDiag diagOf att
  simp only [xblk_apply]

/-! ## What the accumulators hold after each point -/

/-- At the first point of the grid the first accumulator ends at zero plus the block's sum. -/
theorem outs1_first (c : Dev nD) (t : Fin cfg0.N) (h0 : t.val % 8 = 0) (j : S1x1.Idx) :
    (outsAt0 m c t.val t.isLt).1 j = 0 + blockSim (xblk m c t) := by
  rw [outsAt0_A m c t h0]
  dsimp only
  refine (congrFun (Pieces.out_A_1 (F := Ideal) c (grid0.coords t) (ms0_0 t) (hs0_0 t) (ms0_1 t) (hs0_1 t) (ms0_2 t) (hs0_2 t)
    ((hcond0_0 t).mpr h0) (xblk m c t)) j).trans ?_
  rw [Block.pay4_apply, Block.pay1_apply]
  rfl

theorem outs2_first (c : Dev nD) (t : Fin cfg0.N) (h0 : t.val % 8 = 0) (j : S1x1.Idx) :
    (outsAt0 m c t.val t.isLt).2 j = 0 + blockDiag (xblk m c t) := by
  rw [outsAt0_A m c t h0]
  dsimp only
  refine (congrFun (Pieces.out_A_2 (F := Ideal) c (grid0.coords t) (ms0_0 t) (hs0_0 t) (ms0_1 t) (hs0_1 t) (ms0_2 t) (hs0_2 t)
    ((hcond0_0 t).mpr h0) (xblk m c t)) j).trans ?_
  rw [Block.pay5_apply, Block.pay2_apply]
  rfl

/-- At a later point it ends at what the point before left plus the block's sum. -/
theorem outs1_later (c : Dev nD) (t : Fin cfg0.N) (h0 : ¬t.val % 8 = 0) (j : S1x1.Idx) :
    (outsAt0 m c t.val t.isLt).1 j
      = (outsAt0 m c (t.val - 1) (Nat.lt_of_le_of_lt (Nat.sub_le _ _) t.isLt)).1 j + blockSim (xblk m c t) := by
  rw [outsAt0_B m c t h0]
  dsimp only
  refine (congrFun (Pieces.out_B_1 (F := Ideal) c (grid0.coords t) (ms0_0 t) (hs0_0 t) (ms0_1 t) (hs0_1 t) (ms0_2 t) (hs0_2 t)
    (fun h => h0 ((hcond0_0 t).mp h)) (xblk m c t)
    (outsAt0 m c (t.val - 1) (Nat.lt_of_le_of_lt (Nat.sub_le _ _) t.isLt)).1
    (outsAt0 m c (t.val - 1) (Nat.lt_of_le_of_lt (Nat.sub_le _ _) t.isLt)).2) j).trans ?_
  rw [Block.pay4_apply]
  rfl

theorem outs2_later (c : Dev nD) (t : Fin cfg0.N) (h0 : ¬t.val % 8 = 0) (j : S1x1.Idx) :
    (outsAt0 m c t.val t.isLt).2 j
      = (outsAt0 m c (t.val - 1) (Nat.lt_of_le_of_lt (Nat.sub_le _ _) t.isLt)).2 j + blockDiag (xblk m c t) := by
  rw [outsAt0_B m c t h0]
  dsimp only
  refine (congrFun (Pieces.out_B_2 (F := Ideal) c (grid0.coords t) (ms0_0 t) (hs0_0 t) (ms0_1 t) (hs0_1 t) (ms0_2 t) (hs0_2 t)
    (fun h => h0 ((hcond0_0 t).mp h)) (xblk m c t)
    (outsAt0 m c (t.val - 1) (Nat.lt_of_le_of_lt (Nat.sub_le _ _) t.isLt)).1
    (outsAt0 m c (t.val - 1) (Nat.lt_of_le_of_lt (Nat.sub_le _ _) t.isLt)).2) j).trans ?_
  rw [Block.pay5_apply]
  rfl

/-- The running sum of the blocks' sums of squared column sums, in point order from zero. -/
def simUpTo (c : Dev nD) : (n : ℕ) → n < cfg0.N → EReal
  | 0, h => 0 + blockSim (xblk m c ⟨0, h⟩)
  | n + 1, h => simUpTo c n (Nat.lt_of_succ_lt h) + blockSim (xblk m c ⟨n + 1, h⟩)

/-- The running sum of the blocks' sums of squared entries. -/
def diagUpTo (c : Dev nD) : (n : ℕ) → n < cfg0.N → EReal
  | 0, h => 0 + blockDiag (xblk m c ⟨0, h⟩)
  | n + 1, h => diagUpTo c n (Nat.lt_of_succ_lt h) + blockDiag (xblk m c ⟨n + 1, h⟩)

/-- The first accumulator after point `n` is the running sum: by induction on the point. -/
theorem outs1_eq (c : Dev nD) : ∀ (n : ℕ) (h : n < cfg0.N) (j : S1x1.Idx), (outsAt0 m c n h).1 j = simUpTo m c n h
  | 0, h, j => outs1_first m c ⟨0, h⟩ rfl j
  | n + 1, h, j => by
    have hN : cfg0.N = 8 := N_0
    have hB : ¬(⟨n + 1, h⟩ : Fin cfg0.N).val % 8 = 0 := by dsimp only; omega
    refine (outs1_later m c ⟨n + 1, h⟩ hB j).trans ?_
    show (outsAt0 m c n _).1 j + _ = simUpTo m c n _ + _
    rw [outs1_eq c n]

theorem outs2_eq (c : Dev nD) : ∀ (n : ℕ) (h : n < cfg0.N) (j : S1x1.Idx), (outsAt0 m c n h).2 j = diagUpTo m c n h
  | 0, h, j => outs2_first m c ⟨0, h⟩ rfl j
  | n + 1, h, j => by
    have hN : cfg0.N = 8 := N_0
    have hB : ¬(⟨n + 1, h⟩ : Fin cfg0.N).val % 8 = 0 := by dsimp only; omega
    refine (outs2_later m c ⟨n + 1, h⟩ hB j).trans ?_
    show (outsAt0 m c n _).2 j + _ = diagUpTo m c n _ + _
    rw [outs2_eq c n]

theorem seven_lt : 7 < cfg0.N := by rw [show cfg0.N = 8 from N_0]; decide

/-- After the last point the running sums are the sums over all 128 batches. -/
theorem simUpTo_last (c : Dev nD) : simUpTo m c 7 seven_lt = ∑ b : Fin 128, simOf (xarr m c) b := by
  rw [← sum_blocks (fun b => simOf (xarr m c) b), Fin.sum_univ_eight]
  simp only [simUpTo, blockSim_xblk, zero_add]
  rfl

theorem diagUpTo_last (c : Dev nD) : diagUpTo m c 7 seven_lt = ∑ b : Fin 128, diagOf (xarr m c) b := by
  rw [← sum_blocks (fun b => diagOf (xarr m c) b), Fin.sum_univ_eight]
  simp only [diagUpTo, blockDiag_xblk, zero_add]
  rfl

/-! ## The result arrays -/

/-- The first result array's final contents: its one word at the total of sim. -/
abbrev res1 (c : Dev nD) : Vec Ideal S1x1 .f32 := fun _ => (∑ b : Fin 128, simOf (xarr m c) b : EReal)
/-- The second's: its one word at the total of diag. -/
abbrev res2 (c : Dev nD) : Vec Ideal S1x1 .f32 := fun _ => (∑ b : Fin 128, diagOf (xarr m c) b : EReal)

/-- The one write-back of the first accumulator, after point 7, writes the total. -/
theorem flushed1_eq (c : Dev nD) (t : Fin cfg0.N) (hf : (cfg0.win 1).flush t = true) :
    (dats m 0 c).flushed 1 t = ((cfg0.win 1).blk t).view.read (Elt Ideal) (res1 m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  have e : (outsAt0 m c t0_7.val t0_7.isLt).1 = res1 m c := funext fun j => by
    exact (outs1_eq m c 7 seven_lt j).trans (simUpTo_last m c)
  rw [e]
  have hz' : (fun a => win0_1.index t0_7 a * main_v1_0.ty.shape.size a) = fun _ => 0 := funext fun a => by fin_cases a <;> decide
  exact (Memref.read_access_unit_zero (Elt Ideal) main_v1_0 hz' (fun a => by rw [congrFun hz' a]; simp) (res1 m c)).symm

theorem flushed2_eq (c : Dev nD) (t : Fin cfg0.N) (hf : (cfg0.win 2).flush t = true) :
    (dats m 0 c).flushed 2 t = ((cfg0.win 2).blk t).view.read (Elt Ideal) (res2 m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  have e : (outsAt0 m c t0_7.val t0_7.isLt).2 = res2 m c := funext fun j => by
    exact (outs2_eq m c 7 seven_lt j).trans (diagUpTo_last m c)
  rw [e]
  have hz' : (fun a => win0_2.index t0_7 a * main_v1_1.ty.shape.size a) = fun _ => 0 := funext fun a => by fin_cases a <;> decide
  exact (Memref.read_access_unit_zero (Elt Ideal) main_v1_1 hz' (fun a => by rw [congrFun hz' a]; simp) (res2 m c)).symm

/-- The first result array ends holding the total of sim: its one block is written back after point 7. -/
theorem final1 (c : Dev nD) : (dats m 0 c).arrAt 1 cfg0.N = res1 m c :=
  (dats m 0 c).arrAt_eq_of_cover 1 (res1 m c) (flushed1_eq m c) fun i =>
    ⟨t0_7, (flush0_1 t0_7).mpr rfl, by
      show i ∈ ((View.whole main_v1_0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

theorem final2 (c : Dev nD) : (dats m 0 c).arrAt 2 cfg0.N = res2 m c :=
  (dats m 0 c).arrAt_eq_of_cover 2 (res2 m c) (flushed2_eq m c) fun i =>
    ⟨t0_7, (flush0_2 t0_7).mpr rfl, by
      show i ∈ ((View.whole main_v1_1).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

end Cert.KernelIdeal.Accum

end
-- ==== Proof.KernelRun.lean ====
/-
  The idealized kernel's run, read: its result is the loss of the reshaped input.
  The host lines after the region reshape the two one-word result arrays to scalars, divide each by 128 and subtract.
-/
import proofs.«133053_j395136991424_1_alg».proof.Proof.KernelAccum
import Idealize.ShloMosaic.Lib.StableHlo.Run

noncomputable section

namespace Cert.KernelIdeal.Result

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Accum Cert.SimLoss
open scoped BigOperators

variable (m : (ℓ : Loc nD τ sig) → Buf (Elt Ideal) ℓ) (ρ : Dev nD → PrngReg)

/-- The region finds the input reshaped to (batch, row, feature). -/
theorem xarr_eq (c : Dev nD) :
    xarr m c = shapeCast S128x64x2048 (m ((c : Thread nD τ).loc main_arg0)) Facts₀.shapeCasts_S128x64x64x32_S128x64x2048 := by
  show StableHlo.after hostOps0 (fun b => m (c, b)) (Proc.devRef .tc main_v0) = _
  after_results
  rfl

/-- The host lines after the region compute the loss from the two result arrays. -/
theorem tail_eq (c : Dev nD) :
    Pipeline.afterTail₀ cfgs (dats m) 0 (V0 m) [hostOps1] c main_v6 = fun _ => loss (xarr m c) := by
  unfold Pipeline.afterTail₀
  show StableHlo.after hostOps1 _ (Proc.devRef .tc main_v6) = _
  after_results
  have e1 : Pipeline.withArrays (cfgs 0).spec c (V0 m c) (fun w => (dats m 0 c).arrAt w (cfgs 0).N)
      (Proc.tc.devRef main_v1_0) = res1 m c :=
    (Pipeline.withArrays_arr spec0 launch0.win.arr_inj c _ _ 1).trans (final1 m c)
  have e2 : Pipeline.withArrays (cfgs 0).spec c (V0 m c) (fun w => (dats m 0 c).arrAt w (cfgs 0).N)
      (Proc.tc.devRef main_v1_1) = res2 m c :=
    (Pipeline.withArrays_arr spec0 launch0.win.arr_inj c _ _ 2).trans (final2 m c)
  rw [e1, e2]
  rfl

/-- The idealized kernel's run: every weakly fair execution terminates with the result at the loss of the reshaped
    input and the argument unchanged. -/
theorem run : θ_run defs (onTc (τ := τ) (main (F := Ideal))) ⟨m, fun _ => 0, ρ⟩ fun r => ∀ c : Dev nD,
      r.2.mem ((c.tc : Thread nD τ).loc main_v6) = (fun _ => loss (xarr m c))
      ∧ r.2.mem ((c.tc : Thread nD τ).loc main_arg0) = m ((c.tc : Thread nD τ).loc main_arg0) :=
  (θ_run defs _ _).mono (fun _ h c =>
      ⟨((h c).2 main_v6 (Pipeline.mem_restRefs_of main_v6 (by decide) (by decide))).trans (tail_eq m c),
        ((h c).2 main_arg0 (Pipeline.mem_restRefs_of main_arg0 (by decide) (by decide))).trans (W_main_arg0 m (dats m) c)⟩)
    (run_main m ρ)

end Cert.KernelIdeal.Result

end
-- ==== Proof.RefValue.lean ====
/-
  The reference's result is the loss of the reshaped input: its norm is the clamped L2 norm of each row, its
  einsum the Gram matrix of the normalised rows, whose total over each batch is, for a real input, the sum of squared
  column sums.
-/
import proofs.«133053_j395136991424_1_alg».proof.Proof.Gen.ReferenceIdeal.Read
import proofs.«133053_j395136991424_1_alg».proof.Proof.RowNorm

noncomputable section

namespace Cert.ReferenceIdeal.RefValue

open Idealize.ShloMosaic Idealize.ShloMosaic.ValueIdx Cert.ReferenceIdeal Cert.ReferenceIdeal.Gen Cert.ReferenceIdeal.Read Cert.SimLoss
open scoped BigOperators

section Stages

variable (x0 : (⟨S128x64x64x32, .f32⟩ : BufTy).Contents (Elt Ideal))

/-- Every entry of the reshaped input is an entry of the input, so a real input reshapes to a real one. -/
theorem v0_real (hx : ∀ i, ∃ q : ℝ, x0 i = (q : EReal)) (i : SX.Idx) :
    ∃ q : ℝ, val_main_v0 (F := Ideal) x0 i = (q : EReal) := by
  rw [val_main_v0_apply]
  exact hx _

/-- The norm's sum of squares at row (b, n). -/
theorem sumsq_eq (b : Fin 128) (n : Fin 64) :
    val_main_call0_v1 (F := Ideal) x0 (ix2 b n)
      = ∑ k : Fin 2048, val_main_v0 (F := Ideal) x0 (ix3 b n k) * val_main_v0 (F := Ideal) x0 (ix3 b n k) := by
  rw [val_main_call0_v1_apply, val_main_call0_cst_apply, Ideal.ofBits_def, Ideal.ofBits_zero_f32, zero_add]
  refine Finset.sum_congr rfl fun k _ => ?_
  have e : idx_main_call0_v1 (ix2 b n) k = ix3 b n k :=
    funext fun a => Fin.ext (by match a with | ⟨0, _⟩ => rfl | ⟨1, _⟩ => rfl | ⟨2, _⟩ => rfl)
  rw [e, val_main_call0_v0_apply, Ideal.mulf_def]

/-- The normalised input at (b, n, d) is the specification's normalised row entry. -/
theorem v5_eq (b : Fin 128) (n : Fin 64) (d : Fin 2048) :
    val_main_v5 (F := Ideal) x0 (ix3 b n d) = att (val_main_v0 (F := Ideal) x0) b n d := by
  have e4 : idx_main_v4 (ix3 b n d : S128x64x2048.Idx) = ix3 b n (0 : Fin 1) :=
    funext fun a => Fin.ext (by match a with | ⟨0, _⟩ => rfl | ⟨1, _⟩ => rfl | ⟨2, _⟩ => rfl)
  have e2 : idx_main_call0_v2 (ix3 b n (0 : Fin 1) : S128x64x1.Idx) = ix2 b n :=
    funext fun a => Fin.ext (by match a with | ⟨0, _⟩ => rfl | ⟨1, _⟩ => rfl)
  rw [val_main_v5_apply, Ideal.hostDivf_def, val_main_v4_apply, e4, val_main_v3_apply, Ideal.maximumf_def,
    val_main_v1_apply, Ideal.hostUnary_sqrt_def, val_main_call0_v2_apply, e2, sumsq_eq, val_main_v2_apply,
    val_main_cst_apply, Ideal.ofBits_def]
  rfl

/-- The einsum at (b, n, m) is the inner product of the normalised rows n and m of batch b. -/
theorem v6_eq (b : Fin 128) (n m : Fin 64) :
    val_main_v6 (F := Ideal) x0 (ix3 b n m)
      = ∑ k : Fin 2048, att (val_main_v0 (F := Ideal) x0) b n k * att (val_main_v0 (F := Ideal) x0) b m k := by
  rw [val_main_v6_apply]
  refine Finset.sum_congr rfl fun k _ => ?_
  have el : lidx_main_v6 (ix3 b n m : S128x64x64.Idx) k = ix3 b n k :=
    funext fun a => Fin.ext (by match a with | ⟨0, _⟩ => rfl | ⟨1, _⟩ => rfl | ⟨2, _⟩ => rfl)
  have er : ridx_main_v6 (ix3 b n m : S128x64x64.Idx) k = ix3 b m k :=
    funext fun a => Fin.ext (by match a with | ⟨0, _⟩ => rfl | ⟨1, _⟩ => rfl | ⟨2, _⟩ => rfl)
  rw [el, er, v5_eq, v5_eq]

/-- The squared normalised entry at (b, n, d). -/
theorem v7_eq (b : Fin 128) (n : Fin 64) (d : Fin 2048) :
    val_main_v7 (F := Ideal) x0 (ix3 b n d)
      = att (val_main_v0 (F := Ideal) x0) b n d * att (val_main_v0 (F := Ideal) x0) b n d := by
  rw [val_main_v7_apply, Ideal.mulf_def, v5_eq]

/-- Row (b, n)'s sum of squared normalised entries. -/
theorem v8_eq (b : Fin 128) (n : Fin 64) :
    val_main_v8 (F := Ideal) x0 (ix2 b n)
      = ∑ d : Fin 2048, att (val_main_v0 (F := Ideal) x0) b n d * att (val_main_v0 (F := Ideal) x0) b n d := by
  rw [val_main_v8_apply, val_main_cst_0_apply, Ideal.ofBits_def, Ideal.ofBits_zero_f32, zero_add]
  refine Finset.sum_congr rfl fun k _ => ?_
  have e : idx_main_v8 (ix2 b n) k = ix3 b n k :=
    funext fun a => Fin.ext (by match a with | ⟨0, _⟩ => rfl | ⟨1, _⟩ => rfl | ⟨2, _⟩ => rfl)
  rw [e, v7_eq]

/-- Batch b's trace of the Gram matrix. -/
theorem v9_eq (b : Fin 128) :
    val_main_v9 (F := Ideal) x0 (ix1 b) = diagOf (val_main_v0 (F := Ideal) x0) b := by
  rw [val_main_v9_apply, val_main_cst_1_apply, Ideal.ofBits_def, Ideal.ofBits_zero_f32, zero_add]
  unfold diagOf
  refine Finset.sum_congr rfl fun k _ => ?_
  have e : idx_main_v9 (ix1 b) k = ix2 b k :=
    funext fun a => Fin.ext (by match a with | ⟨0, _⟩ => rfl | ⟨1, _⟩ => rfl)
  rw [e, v8_eq]

/-- A sum over a rank-one index set is the sum over its coordinate. -/
theorem sum_idx1 {M : Type*} [AddCommMonoid M] {n : Nat} (f : (⟨1, ![n]⟩ : Shape).Idx → M) :
    ∑ i, f i = ∑ a : Fin n, f (ix1 a) := by
  refine Finset.sum_nbij' (fun i => i 0) (fun a => ix1 a) (fun _ _ => Finset.mem_univ _) (fun _ _ => Finset.mem_univ _)
    (fun i _ => (eq_ix1 i).symm) (fun _ _ => rfl) (fun i _ => congrArg f (eq_ix1 i))

/-- The sum of the batches' traces. -/
theorem v10_eq (i : S_.Idx) :
    val_main_v10 (F := Ideal) x0 i = ∑ b : Fin 128, diagOf (val_main_v0 (F := Ideal) x0) b := by
  rw [val_main_v10_apply, val_main_cst_2_apply, Ideal.ofBits_def, Ideal.ofBits_zero_f32, zero_add, sum_idx1]
  exact Finset.sum_congr rfl fun b _ => v9_eq x0 b

/-- The batch coordinate of an index of the Gram array survives the sum over its two row axes. -/
theorem drop12_val (i : S128x64x64.Idx) :
    ((reducesTo_S128x64x64_S128_d1_2.drop i) (0 : Fin S128.rank) : Nat) = ((i (0 : Fin S128x64x64.rank)) : Nat) :=
  Shape.ReducesTo.drop_apply_val_of_eq reducesTo_S128x64x64_S128_d1_2 i 0 0

/-- An index of the Gram array reduces to batch b exactly when its batch coordinate is b. -/
theorem drop12_iff (i : S128x64x64.Idx) (b : Fin 128) :
    reducesTo_S128x64x64_S128_d1_2.drop i = ix1 b ↔ i 0 = b := by
  constructor
  · intro h
    refine Fin.ext ?_
    rw [← drop12_val, h]
  · intro h
    funext a
    match a with
    | ⟨0, _⟩ => exact Fin.ext ((drop12_val i).trans (congrArg Fin.val h))

/-- The sum over the two row axes of a [128, 64, 64] array, read at batch b: the initial value plus the double sum over
    the rows. -/
theorem reduce12_apply (y : S128x64x64.Idx → EReal) (init : EReal) (b : Fin 128) :
    Ideal.hostReduceAdd reducesTo_S128x64x64_S128_d1_2 y init (ix1 b)
      = init + ∑ n : Fin 64, ∑ m : Fin 64, y (ix3 b n m) := by
  unfold Ideal.hostReduceAdd
  refine congrArg (init + ·) ?_
  rw [← Fintype.sum_prod_type' (f := fun (n m : Fin 64) => y (ix3 b n m))]
  refine Finset.sum_nbij' (fun i => ((i 1 : Fin 64), (i 2 : Fin 64))) (fun p => ix3 b p.1 p.2)
    (fun _ _ => Finset.mem_univ _) (fun p _ => ?_) (fun i hi => ?_) (fun _ _ => rfl) (fun i hi => ?_)
  · rw [Finset.mem_filter]
    exact ⟨Finset.mem_univ _, (drop12_iff _ _).mpr rfl⟩
  · have h0 : i 0 = b := (drop12_iff _ _).mp (Finset.mem_filter.mp hi).2
    subst h0
    exact (eq_ix3 i).symm
  · have h0 : i 0 = b := (drop12_iff _ _).mp (Finset.mem_filter.mp hi).2
    subst h0
    exact congrArg y (eq_ix3 i)

/-- Batch b's total of the Gram matrix, as the sum over every pair of rows of their inner product. -/
theorem v12_eq_gram (b : Fin 128) :
    val_main_v12 (F := Ideal) x0 (ix1 b)
      = ∑ n : Fin 64, ∑ m : Fin 64, ∑ d : Fin 2048,
          att (val_main_v0 (F := Ideal) x0) b n d * att (val_main_v0 (F := Ideal) x0) b m d := by
  unfold val_main_v12
  simp only [Host.reduceAdd, Ideal.hostReduceAdd_def]
  rw [reduce12_apply, val_main_cst_4_apply, Ideal.ofBits_def, Ideal.ofBits_zero_f32, zero_add]
  exact Finset.sum_congr rfl fun n _ => Finset.sum_congr rfl fun m _ => v6_eq x0 b n m

/-- For a real input, batch b's total of the Gram matrix is the sum of squared column sums. -/
theorem v12_eq (hx : ∀ i, ∃ q : ℝ, x0 i = (q : EReal)) (b : Fin 128) :
    val_main_v12 (F := Ideal) x0 (ix1 b) = simOf (val_main_v0 (F := Ideal) x0) b := by
  rw [v12_eq_gram, simOf_eq_gram _ (v0_real x0 hx) b]

/-- The sum of the batches' Gram totals. -/
theorem v13_eq (hx : ∀ i, ∃ q : ℝ, x0 i = (q : EReal)) (i : S_.Idx) :
    val_main_v13 (F := Ideal) x0 i = ∑ b : Fin 128, simOf (val_main_v0 (F := Ideal) x0) b := by
  rw [val_main_v13_apply, val_main_cst_5_apply, Ideal.ofBits_def, Ideal.ofBits_zero_f32, zero_add, sum_idx1]
  exact Finset.sum_congr rfl fun b _ => v12_eq x0 hx b

end Stages

/-- The reference's result, for a real input, is the loss of the input read as (batch, row, feature). -/
theorem result_eq (x0 : (⟨S128x64x64x32, .f32⟩ : BufTy).Contents (Elt Ideal)) (hx : ∀ i, ∃ q : ℝ, x0 i = (q : EReal)) :
    val_main_v15 (F := Ideal) x0 = fun _ => loss (val_main_v0 (F := Ideal) x0) := by
  funext i
  rw [val_main_v15_apply, Ideal.subf_def, val_main_v14_apply, val_main_v11_apply, Ideal.hostDivf_def, Ideal.hostDivf_def,
    val_main_cst_6_apply, val_main_cst_3_apply, Ideal.ofBits_def, v13_eq x0 hx, v10_eq]
  rfl

end Cert.ReferenceIdeal.RefValue

end
-- ==== Proof.Finite.lean ====
/-
  The precondition read back: when the printed test "every |x| is below +∞" holds of the input, every entry of the
  input is a real number.
-/
import proofs.«133053_j395136991424_1_alg».proof.Pre_finite_inputs
import proofs.«133053_j395136991424_1_alg».proof.Proof.Gen.Pre_finite_inputs
import Idealize.ShloMosaic.PureOps.Ideal
import Idealize.ShloMosaic.Lib.ReduceAll
import Idealize.ShloMosaic.Lib.ValueIdx

noncomputable section

namespace Cert.SimLoss

open Idealize.ShloMosaic

/-- The f32 word 0x7F800000 reads as +∞. -/
theorem finite_inf_bits : Ideal.ofBits .f32 0x7F800000#32 = (⊤ : EReal) := by
  simp [Ideal.ofBits, Ideal.ieee]

/-- An extended real whose absolute value max x (-x) lies strictly below +∞ is a real: at either infinity the
    absolute value is +∞. -/
theorem finite_real_of_abs_lt_top (x : EReal) (hx : max x (-x) < ⊤) : ∃ q : ℝ, x = (q : EReal) := by
  induction x using EReal.rec with
  | bot => exact absurd hx (by simp)
  | top => exact absurd hx (by simp)
  | coe q => exact ⟨q, rfl⟩

/-- Under the precondition every entry of the input is a real. -/
theorem real_of_pre [Cert.Pre_finite_inputs.Facts] (x0 : FVec Ideal Cert.Pre_finite_inputs.S128x64x64x32 .f32)
    (h : Cert.Pre_finite_inputs.fn (F := Ideal) x0 = fun _ => 1#1) :
    ∀ i, ∃ q : ℝ, x0 i = (q : EReal) := by
  intro i
  have h0 := congrFun h ValueIdx.ix0
  dsimp only [Cert.Pre_finite_inputs.fn] at h0
  -- the result of the all-reduce has a single index, so every compare bit reduces into it
  haveI : Subsingleton Cert.Pre_finite_inputs.S_.Idx := ⟨fun a b => funext fun d => d.elim0⟩
  have hb := Host.reduce_andi_all _ _ _ _ _ h0 i
  -- read at i, the compare is |x0 i| < (the word 0x7F800000), the broadcast constant being the same at every index
  have hc : Ideal.cmp .olt (max (x0 i) (-(x0 i))) (Ideal.ofBits .f32 0x7F800000#32) = 1#1 := hb
  rw [finite_inf_bits] at hc
  have hlt : max (x0 i) (-(x0 i)) < ⊤ := by
    by_contra hn
    simp [Ideal.cmp, hn] at hc
  exact finite_real_of_abs_lt_top _ hlt

end Cert.SimLoss

end
-- ==== Proof.lean ====
/-
  The self-similarity loss: a kernel that L2-normalises the rows of each batch, and accumulates over eight blocks of
  sixteen batches the sum of squared column sums ∑_d (∑_n a(n,d))² and the sum of squared entries ∑_n ∑_d a(n,d)²,
  against a reference that forms the Gram matrix a·aᵀ of each batch by an einsum and sums all of its entries and its
  diagonal.  Both end at (∑_b sim(b)) / 128 − (∑_b diag(b)) / 128 of the reshaped input: the kernel by regrouping its
  partial sums (addition on the extended reals is commutative and associative), the reference by the Gram identity
  ∑_{n,m} ∑_d a(n,d)·a(m,d) = ∑_d (∑_n a(n,d))², which needs the normalised entries to be real; they are, for a finite
  input, because the clamp ε of the norm is positive.  The square root and the two divisions are the same functions on
  both sides and are never evaluated.
-/
import proofs.«133053_j395136991424_1_alg».proof.Defs
import proofs.«133053_j395136991424_1_alg».proof.Proof.Gen.Kernel.Frame
import proofs.«133053_j395136991424_1_alg».proof.Proof.Gen.KernelIdeal.Frame
import proofs.«133053_j395136991424_1_alg».proof.Proof.Gen.ReferenceIdeal.Run
import proofs.«133053_j395136991424_1_alg».proof.Proof.Gen.ReferenceIdeal.Read
import proofs.«133053_j395136991424_1_alg».proof.Proof.Gen.Pre_finite_inputs
import proofs.«133053_j395136991424_1_alg».proof.Proof.KernelRun
import proofs.«133053_j395136991424_1_alg».proof.Proof.RefValue
import proofs.«133053_j395136991424_1_alg».proof.Proof.Finite
import Idealize.ShloMosaic.Adequacy
import Idealize.ShloMosaic.Init

noncomputable section

namespace Cert.Proof

open Idealize.ShloMosaic Idealize.ShloMosaic.TcCoe Idealize.SL.Sem Cert.SimLoss

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the loss of the reshaped input: the kernel by its accumulation over the grid, the reference,
    whose input is finite and so real, by the Gram identity. -/
theorem algebraic : Cert.algebraic_KernelIdeal_ReferenceIdeal := by
  intro m ρ m' ρ' hpre hagree
  refine ⟨fun c => fun _ => loss (Cert.KernelIdeal.Accum.xarr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c,
    Cert.ReferenceIdeal.RefValue.result_eq _ (real_of_pre _ (hpre c))]
  show (fun _ => loss _) = fun _ => loss (Cert.KernelIdeal.Accum.xarr m c)
  rw [Cert.KernelIdeal.Result.xarr_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
